-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S128x2048 : Shape := ⟨2, ![128, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_

variable [Facts]

def fn {F : FTy → Type} [FloatOps F] (main_arg0 : FVec F S1024x2048 .f32) (main_arg1 : FVec F S1024x2048 .f32) (main_arg2 : FVec F S128x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  main_v13
-- ==== Kernel.lean ====
abbrev S1024x2048 : Shape := ⟨2, ![1024, 2048]⟩
abbrev S128x2048 : Shape := ⟨2, ![128, 2048]⟩
abbrev S1024x128 : Shape := ⟨2, ![1024, 128]⟩
abbrev S256x2048 : Shape := ⟨2, ![256, 2048]⟩
abbrev S256x128 : Shape := ⟨2, ![256, 128]⟩
abbrev S1024x1024 : Shape := ⟨2, ![1024, 1024]⟩
abbrev S512x128 : Shape := ⟨2, ![512, 128]⟩
abbrev S512x512 : Shape := ⟨2, ![512, 512]⟩

abbrev nBuf : Space → Nat
  | .hbm => 6
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S128x2048, .f32⟩
  | .hbm, ⟨3, _⟩ => ⟨S1024x128, .bf16⟩
  | .hbm, ⟨4, _⟩ => ⟨S1024x128, .bf16⟩
  | .hbm, ⟨5, _⟩ => ⟨S1024x1024, .f32⟩
  | .local _ .vmem, ⟨0, _⟩ => ⟨S256x2048, .f32⟩
  | .local _ .vmem, ⟨1, _⟩ => ⟨S256x2048, .f32⟩
  | .local _ .vmem, ⟨2, _⟩ => ⟨S128x2048, .f32⟩
  | .local _ .vmem, ⟨3, _⟩ => ⟨S256x128, .bf16⟩
  | .local _ .vmem, ⟨4, _⟩ => ⟨S256x128, .bf16⟩
  | .local _ .vmem, ⟨5, _⟩ => ⟨S256x2048, .f32⟩
  | .local _ .vmem, ⟨6, _⟩ => ⟨S256x2048, .f32⟩
  | .local _ .vmem, ⟨7, _⟩ => ⟨S128x2048, .f32⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x512, .f32⟩
  | .local _ .vmem, ⟨15, _⟩ => ⟨S512x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x512_S512x512_0_0 : ∀ a, (![0, 0] : Fin 2 → Nat) a + S512x512.size a ≤ S512x512.size a
  h_S512x512 : 0 < S512x512.numel
  dot_S256x2048_S128x2048_S256x128_1_1_0_0_n_n_wf : DotDims.WF S256x2048 S128x2048 S256x128 [1] [1] [0] [0] [] []
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S1024x128.size a
  hwx0_2 : ∀ i : grid0.Coords, EltTy.bits .bf16 = 32 ∨ (Rect.block (s := S1024x128) S256x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S1024x2048.size a
  hwx1_0 : ∀ i : grid1.Coords, EltTy.bits .f32 = 32 ∨ (Rect.block (s := S1024x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S128x2048.size a
  hwx1_1 : ∀ i : grid1.Coords, EltTy.bits .f32 = 32 ∨ (Rect.block (s := S128x2048) S128x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S1024x128.size a
  hwx1_2 : ∀ i : grid1.Coords, EltTy.bits .bf16 = 32 ∨ (Rect.block (s := S1024x128) S256x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S1024x128.size a
  hwx2_0 : ∀ i : grid2.Coords, EltTy.bits .bf16 = 32 ∨ (Rect.block (s := S1024x128) S512x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S1024x128.size a
  hwx2_1 : ∀ i : grid2.Coords, EltTy.bits .bf16 = 32 ∨ (Rect.block (s := S1024x128) S512x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S1024x1024.size a
  hwx2_2 : ∀ i : grid2.Coords, EltTy.bits .f32 = 32 ∨ (Rect.block (s := S1024x1024) S512x512.size (cc2_transform_2 i) (hinb2_2 i)).WholeWords (EltTy.packing .f32)

variable [Facts₀]

def dot_S256x2048_S128x2048_S256x128_1_1_0_0_n_n : DotDims S256x2048 S128x2048 S256x128 where
  lhsContracting := [1]
  rhsContracting := [1]
  lhsNonContracting := [0]
  rhsNonContracting := [0]
  lhsBatch := []
  rhsBatch := []
  wf := dot_S256x2048_S128x2048_S256x128_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1024x2048 : Shape := ⟨2, ![1024, 2048]⟩
abbrev S128x2048 : Shape := ⟨2, ![128, 2048]⟩
abbrev S2048x128 : Shape := ⟨2, ![2048, 128]⟩
abbrev S1024x128 : Shape := ⟨2, ![1024, 128]⟩
abbrev S_ : Shape := ⟨0, ![]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S128x2048, .f32⟩
  | .hbm, ⟨3, _⟩ => ⟨S2048x128, .f32⟩
  | .hbm, ⟨4, _⟩ => ⟨S1024x128, .f32⟩
  | .hbm, ⟨5, _⟩ => ⟨S2048x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S_, .f32⟩
  | .hbm, ⟨11, _⟩ => ⟨S1024x128, .f32⟩
  | .hbm, ⟨12, _⟩ => ⟨S1024x128, .f32⟩
  | .hbm, ⟨13, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_call1_cst : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  transposes_S128x2048_S2048x128_1_0 : S128x2048.Transposes [1, 0] S2048x128
  bcast_S_S1024x128 : S_.BroadcastsInDim S1024x128 (![] : Fin 0 → Fin S1024x128.rank)
  dot_S1024x2048_S2048x128_S1024x128_1_0_0_1_n_n_wf : DotDims.WF S1024x2048 S2048x128 S1024x128 [1] [0] [0] [1] [] []
  dot_S1024x128_S1024x128_S1024x1024_1_1_0_0_n_n_wf : DotDims.WF S1024x128 S1024x128 S1024x1024 [1] [1] [0] [0] [] []

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

class Facts : Prop extends Facts₀ where

variable [Facts]
-- ==== Proof.Payloads.lean ====
/-
  The three kernel bodies' stored values, read at an index, at the ideal instance.

  Both projection bodies store, at (p, q) of their [256, 128] block, the inner product over the 2048 columns of
  row `p` of the loaded [256, 2048] block with row `q` of the loaded [128, 2048] table, clamped below at zero
  (the changes of float format around the product are the identity on the extended reals, and the product
  accumulates into a zero array). The last body stores, at (p, q) of its [512, 512] block, the inner product over
  the 128 columns of row `p` of its first loaded block with row `q` of its second.
-/
import proofs.«141384_j89567247991565_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.TcCoe

/-! ## The projection's product: [256, 2048] × [128, 2048], both contracted along the columns -/

theorem lhs_proj_0 (i : S256x128.Idx) (q : dot_S256x2048_S128x2048_S256x128_1_1_0_0_n_n.contr.Idx) :
    (dot_S256x2048_S128x2048_S256x128_1_1_0_0_n_n.lhsIdx i q 0).val = (i 0).val := by
  unfold DotDims.lhsIdx
  rw [dif_neg (show ¬(0 : Fin S256x2048.rank) ∈ dot_S256x2048_S128x2048_S256x128_1_1_0_0_n_n.lhsBatch by decide), dif_pos (show (0 : Fin S256x2048.rank) ∈ dot_S256x2048_S128x2048_S256x128_1_1_0_0_n_n.lhsNonContracting by decide)]
  rfl
theorem lhs_proj_1 (i : S256x128.Idx) (q : dot_S256x2048_S128x2048_S256x128_1_1_0_0_n_n.contr.Idx) :
    (dot_S256x2048_S128x2048_S256x128_1_1_0_0_n_n.lhsIdx i q 1).val = (q ⟨0, by decide⟩).val :=
  dot_S256x2048_S128x2048_S256x128_1_1_0_0_n_n.lhsIdx_val_of_single rfl i q
theorem rhs_proj_0 (i : S256x128.Idx) (q : dot_S256x2048_S128x2048_S256x128_1_1_0_0_n_n.contr.Idx) :
    (dot_S256x2048_S128x2048_S256x128_1_1_0_0_n_n.rhsIdx i q 0).val = (i 1).val := by
  unfold DotDims.rhsIdx
  rw [dif_neg (show ¬(0 : Fin S128x2048.rank) ∈ dot_S256x2048_S128x2048_S256x128_1_1_0_0_n_n.rhsBatch by decide), dif_pos (show (0 : Fin S128x2048.rank) ∈ dot_S256x2048_S128x2048_S256x128_1_1_0_0_n_n.rhsNonContracting by decide)]
  rfl
theorem rhs_proj_1 (i : S256x128.Idx) (q : dot_S256x2048_S128x2048_S256x128_1_1_0_0_n_n.contr.Idx) :
    (dot_S256x2048_S128x2048_S256x128_1_1_0_0_n_n.rhsIdx i q 1).val = (q ⟨0, by decide⟩).val :=
  dot_S256x2048_S128x2048_S256x128_1_1_0_0_n_n.rhsIdx_val_of_single rfl i q

/-- The left operand's index for output index `i` and column `k`: row `i 0`, column `k`. -/
abbrev lrow_proj (i : S256x128.Idx) (k : Fin 2048) : S256x2048.Idx := fun a => match a with
  | ⟨0, _⟩ => ⟨(i 0).val, (i 0).isLt⟩
  | ⟨1, _⟩ => ⟨k.val, k.isLt⟩
/-- The right operand's: row `i 1`, column `k` (both operands are contracted along their last axis). -/
abbrev rrow_proj (i : S256x128.Idx) (k : Fin 2048) : S128x2048.Idx := fun a => match a with
  | ⟨0, _⟩ => ⟨(i 1).val, (i 1).isLt⟩
  | ⟨1, _⟩ => ⟨k.val, k.isLt⟩

/-- The matrix product into a zero accumulator, at an index: the inner product of row `i 0` of the left operand
    with row `i 1` of the right one, as a sum over the 2048 columns. -/
theorem matmul_proj (x : FVec Ideal S256x2048 .bf16) (y : FVec Ideal S128x2048 .bf16) (i : S256x128.Idx) :
    matmul dot_S256x2048_S128x2048_S256x128_1_1_0_0_n_n none x y (constant (F := Ideal) S256x128 .f32 0x00000000#32) i
      = ∑ k : Fin 2048, x (lrow_proj i k) * y (rrow_proj i k) := by
  simp only [matmul]
  rw [Ideal.matmul_constant_zero_apply, ← Equiv.sum_comp (ValueIdx.contrEquiv1 dot_S256x2048_S128x2048_S256x128_1_1_0_0_n_n 2048 rfl rfl).symm]
  refine Finset.sum_congr rfl fun k _ => ?_
  have hk := ValueIdx.contrEquiv1_symm_val dot_S256x2048_S128x2048_S256x128_1_1_0_0_n_n 2048 rfl rfl k
  have el : dot_S256x2048_S128x2048_S256x128_1_1_0_0_n_n.lhsIdx i ((ValueIdx.contrEquiv1 dot_S256x2048_S128x2048_S256x128_1_1_0_0_n_n 2048 rfl rfl).symm k) = lrow_proj i k := funext fun a => Fin.ext (by
    match a with
    | ⟨0, _⟩ => exact lhs_proj_0 _ _
    | ⟨1, _⟩ => exact (lhs_proj_1 _ _).trans hk)
  have er : dot_S256x2048_S128x2048_S256x128_1_1_0_0_n_n.rhsIdx i ((ValueIdx.contrEquiv1 dot_S256x2048_S128x2048_S256x128_1_1_0_0_n_n 2048 rfl rfl).symm k) = rrow_proj i k := funext fun a => Fin.ext (by
    match a with
    | ⟨0, _⟩ => exact rhs_proj_0 _ _
    | ⟨1, _⟩ => exact (rhs_proj_1 _ _).trans hk)
  rw [el, er]

/-- What the first projection body stores: the clamped inner product of a row of the block with a row of the table. -/
theorem pay_proj0 (x0 : Vec Ideal S256x2048 .f32) (x1 : Vec Ideal S128x2048 .f32) (i : S256x128.Idx) :
    k0_pay1 (F := Ideal) x0 x1 i
      = max (∑ k : Fin 2048, x0 (lrow_proj i k) * x1 (rrow_proj i k)) (Ideal.ofBits .f32 0x00000000#32) := by
  unfold k0_pay1
  show max (matmul dot_S256x2048_S128x2048_S256x128_1_1_0_0_n_n none (truncf .bf16 x0 bitsLt_bf16_f32) (truncf .bf16 x1 bitsLt_bf16_f32)
    (constant (F := Ideal) S256x128 .f32 0x00000000#32) i) (Ideal.ofBits .f32 0x00000000#32) = _
  rw [matmul_proj]
  rfl

/-- The second projection body is the same function of its loads. -/
theorem pay_proj1 (x0 : Vec Ideal S256x2048 .f32) (x1 : Vec Ideal S128x2048 .f32) (i : S256x128.Idx) :
    k1_pay1 (F := Ideal) x0 x1 i
      = max (∑ k : Fin 2048, x0 (lrow_proj i k) * x1 (rrow_proj i k)) (Ideal.ofBits .f32 0x00000000#32) :=
  pay_proj0 x0 x1 i

/-! ## The last product: [512, 128] × [512, 128], both contracted along the 128 features -/

theorem lhs_fin_0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
theorem lhs_fin_1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
theorem rhs_fin_0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
theorem rhs_fin_1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- The left operand's index for output index `i` and column `k`: row `i 0`, column `k`. -/
abbrev lrow_fin (i : S512x512.Idx) (k : Fin 128) : S512x128.Idx := fun a => match a with
  | ⟨0, _⟩ => ⟨(i 0).val, (i 0).isLt⟩
  | ⟨1, _⟩ => ⟨k.val, k.isLt⟩
/-- The right operand's: row `i 1`, column `k` (both operands are contracted along their last axis). -/
abbrev rrow_fin (i : S512x512.Idx) (k : Fin 128) : S512x128.Idx := fun a => match a with
  | ⟨0, _⟩ => ⟨(i 1).val, (i 1).isLt⟩
  | ⟨1, _⟩ => ⟨k.val, k.isLt⟩

/-- The matrix product into a zero accumulator, at an index: the inner product of row `i 0` of the left operand
    with row `i 1` of the right one, as a sum over the 128 columns. -/
theorem matmul_fin (x : FVec Ideal S512x128 .bf16) (y : FVec Ideal S512x128 .bf16) (i : S512x512.Idx) :
    matmul dot_S512x128_S512x128_S512x512_1_1_0_0_n_n none x y (constant (F := Ideal) S512x512 .f32 0x00000000#32) i
      = ∑ k : Fin 128, x (lrow_fin i k) * y (rrow_fin i k) := by
  simp only [matmul]
  rw [Ideal.matmul_constant_zero_apply, ← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  have el : dot_S512x128_S512x128_S512x512_1_1_0_0_n_n.lhsIdx i ((ValueIdx.contrEquiv1 dot_S512x128_S512x128_S512x512_1_1_0_0_n_n 128 rfl rfl).symm k) = lrow_fin i k := funext fun a => Fin.ext (by
    match a with
    | ⟨0, _⟩ => exact lhs_fin_0 _ _
    | ⟨1, _⟩ => exact (lhs_fin_1 _ _).trans hk)
  have er : dot_S512x128_S512x128_S512x512_1_1_0_0_n_n.rhsIdx i ((ValueIdx.contrEquiv1 dot_S512x128_S512x128_S512x512_1_1_0_0_n_n 128 rfl rfl).symm k) = rrow_fin i k := funext fun a => Fin.ext (by
    match a with
    | ⟨0, _⟩ => exact rhs_fin_0 _ _
    | ⟨1, _⟩ => exact (rhs_fin_1 _ _).trans hk)
  rw [el, er]

/-- What the last body stores: the inner product of a row of its first block with a row of its second. -/
theorem pay_fin (x0 x1 : Vec Ideal S512x128 .bf16) (i : S512x512.Idx) :
    k2_pay1 (F := Ideal) x0 x1 i = ∑ k : Fin 128, x0 (lrow_fin i k) * x1 (rrow_fin i k) := by
  unfold k2_pay1
  show matmul dot_S512x128_S512x128_S512x512_1_1_0_0_n_n none (shapeCast S512x128 x0 shapeCasts_S512x128_S512x128) (shapeCast S512x128 x1 shapeCasts_S512x128_S512x128)
    (constant (F := Ideal) S512x512 .f32 0x00000000#32) i = _
  rw [shapeCast_self, shapeCast_self, matmul_fin]

end Cert.KernelIdeal.Pay

end
-- ==== Proof.Spec.lean ====
/-
  What both programs compute, as plain sums on the extended reals.

  A row `r` of a [1024, 2048] array `x` is scored against feature `k` of the [128, 2048] table `f` by the
  inner product over the 2048 columns, clamped below at zero:
      score x f r k = max (∑ j, x[r, j] · f[k, j]) 0.
  The result at (r, s) pairs the scores of row `r` of `a` with those of row `s` of `b` over the 128 features:
      overlap p q (r, s) = ∑ k, p[r, k] · q[s, k],      result = overlap (scores a f) (scores b f).
  The zero is kept as the float word it is printed as, the same word on both sides; it is never evaluated.
-/
import Idealize.ShloMosaic.PureOps.Ideal
import Idealize.ShloMosaic.Lib.ValueIdx

noncomputable section

namespace Cert.Scores

open Idealize.ShloMosaic Idealize.ShloMosaic.ValueIdx

/-- Row `r` of `x` against feature `k` of `f`: the inner product over the 2048 columns, clamped at zero. -/
def score (x : (⟨2, ![1024, 2048]⟩ : Shape).Idx → EReal) (f : (⟨2, ![128, 2048]⟩ : Shape).Idx → EReal)
    (r : Fin 1024) (k : Fin 128) : EReal :=
  max (∑ j : Fin 2048, x (ix2 r j) * f (ix2 k j)) (Ideal.ofBits .f32 0x00000000#32)

/-- The [1024, 128] table of scores. -/
def scores (x : (⟨2, ![1024, 2048]⟩ : Shape).Idx → EReal) (f : (⟨2, ![128, 2048]⟩ : Shape).Idx → EReal) :
    (⟨2, ![1024, 128]⟩ : Shape).Idx → EReal :=
  fun i => score x f (i 0) (i 1)

/-- Rows of `p` against rows of `q`: the inner product over the 128 features. -/
def overlap (p q : (⟨2, ![1024, 128]⟩ : Shape).Idx → EReal) : (⟨2, ![1024, 1024]⟩ : Shape).Idx → EReal :=
  fun i => ∑ k : Fin 128, p (ix2 (i 0) k) * q (ix2 (i 1) k)

/-- The whole result as one function of the three argument arrays. -/
def result (a b : (⟨2, ![1024, 2048]⟩ : Shape).Idx → EReal) (f : (⟨2, ![128, 2048]⟩ : Shape).Idx → EReal) :
    (⟨2, ![1024, 1024]⟩ : Shape).Idx → EReal :=
  overlap (scores a f) (scores b f)

end Cert.Scores

end
-- ==== Proof.Region0.lean ====
/-
  The first projection, from blocks to the array.

  The call walks the four row blocks of its [1024, 2048] operand: point `t` loads rows 256·t … 256·t + 255, the whole
  [128, 2048] table beside them, and writes back rows 256·t … 256·t + 255 of the [1024, 128] result. At (p, q) of
  that block the body stores the clamped inner product of row `p` of the loaded rows with row `q` of the table, which
  is the score of row 256·t + p of the operand against feature `q`. The four blocks tile the result, so after the call
  the result array is the table of scores, whatever contents `V` the call was entered with.
-/
import proofs.«141384_j89567247991565_1_alg».proof.Proof.Gen.KernelIdeal.Frame
import proofs.«141384_j89567247991565_1_alg».proof.Proof.Payloads
import proofs.«141384_j89567247991565_1_alg».proof.Proof.Spec
import Idealize.ShloMosaic.Lib.Pipeline.Value

set_option maxRecDepth 16384

noncomputable section

namespace Cert.KernelIdeal.Proj0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the operand's row block moves with the result's, every other block index is zero. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Each of the four row blocks of the result is some point's. -/
theorem idx_onto : ∀ q0 : Fin 4, ∃ t : Fin cfg0.N, win0_2.index t = ![q0.val, 0] :=
  (by decide +kernel : ∀ q0 : Fin 4, ∃ t : Fin grid0.N, win0_2.index t = ![q0.val, 0])

/-- The operand's block at point `t` read at `y` is the operand read at the row and column `y` stands for. -/
theorem rows_apply (c : Dev nD) (t : Fin cfg0.N) (y : S256x2048.Idx) (i : S1024x2048.Idx)
    (h0 : win0_0.index t (0 : Fin 2) * 256 + 1 * (y 0).val = (i 0).val)
    (h1 : win0_0.index t (1 : Fin 2) * 2048 + 1 * (y 1).val = (i 1).val) :
    (iblk0 V c 0 t : Vec Ideal S256x2048 .f32) y = (V c main_arg0 : S1024x2048.Idx → Elt Ideal .f32) i := by
  unfold iblk0
  rw [View.read_apply]
  show V c main_arg0 _ = V c main_arg0 _
  congr 1
  funext a
  apply Fin.ext
  match a with
  | ⟨0, _⟩ => exact h0
  | ⟨1, _⟩ => exact h1

/-- The table's block at any point is the table. -/
theorem table_apply (c : Dev nD) (t : Fin cfg0.N) (y : S128x2048.Idx) (i : S128x2048.Idx)
    (h0 : win0_1.index t (0 : Fin 2) * 128 + 1 * (y 0).val = (i 0).val)
    (h1 : win0_1.index t (1 : Fin 2) * 2048 + 1 * (y 1).val = (i 1).val) :
    (iblk0 V c 1 t : Vec Ideal S128x2048 .f32) y = (V c main_arg2 : S128x2048.Idx → Elt Ideal .f32) i := by
  unfold iblk0
  rw [View.read_apply]
  show V c main_arg2 _ = V c main_arg2 _
  congr 1
  funext a
  apply Fin.ext
  match a with
  | ⟨0, _⟩ => exact h0
  | ⟨1, _⟩ => exact h1

/-- What point `t` writes back is block `t` of the table of scores. -/
theorem flushed_eq (c : Dev nD) (t : Fin cfg0.N) :
    (dat0 V c).flushed 2 t
      = ((cfg0.win 2).blk t).view.read (Elt Ideal) (Cert.Scores.scores (V c main_arg0) (V c main_arg2)) := by
  show (cfg0.win 2).cut (grid0.coords t) ((dat0 V c).after 2 t) = _
  rw [after0_2]
  unfold out0_2
  rw [View.canon_unit_zero hz]
  simp only [View.ld_unit_zero (S := S256x2048) hz, View.ld_unit_zero (S := S128x2048) hz]
  obtain ⟨e0, e1, e2, e3, e4⟩ := idx_facts t
  funext j
  show k0_pay1 (iblk0 V c 0 t) (iblk0 V c 1 t) j
    = Cert.Scores.scores (V c main_arg0) (V c main_arg2) (((cfg0.win 2).blk t).view.emb j)
  refine (pay_proj0 (iblk0 V c 0 t) (iblk0 V c 1 t) j).trans ?_
  unfold Cert.Scores.scores Cert.Scores.score
  refine congrArg (max · _) (Finset.sum_congr rfl fun k _ => ?_)
  refine congrArg₂ (· * ·) (rows_apply V c t _ _ ?_ ?_) (table_apply V c t _ _ ?_ ?_)
  · show win0_0.index t (0 : Fin 2) * 256 + 1 * (j 0).val = win0_2.index t (0 : Fin 2) * 256 + 1 * (j 0).val
    omega
  · show win0_0.index t (1 : Fin 2) * 2048 + 1 * k.val = k.val
    omega
  · show win0_1.index t (0 : Fin 2) * 128 + 1 * (j 1).val = win0_2.index t (1 : Fin 2) * 128 + 1 * (j 1).val
    omega
  · show win0_1.index t (1 : Fin 2) * 2048 + 1 * k.val = k.val
    omega

/-- An index of the result is in point `t`'s block iff each coordinate is in the block's range on its axis. -/
theorem mem_blk (t : Fin cfg0.N) (i : S1024x128.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v0).slice (win0_2.rect t)).set ↔ _
  rw [View.set_slice_whole, Rect.mem_set_unit]
  exact Iff.rfl

/-- Row `r` of the result is written back by the point whose block index is `r / 256`. -/
theorem cover (i : S1024x128.Idx) :
    ∃ t : Fin cfg0.N, (cfg0.win 2).flush t = true ∧ i ∈ ((cfg0.win 2).blk t).view.set := by
  have hi0 : (i 0).val < 1024 := (i 0).isLt
  have hi1 : (i 1).val < 128 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 128 ≤ (i 1).val ∧ (i 1).val < win0_2.index t (1 : Fin 2) * 128 + 128
    omega

/-- After the call the result array is the table of scores of the operand against the table, as the call found them. -/
theorem final (c : Dev nD) :
    (dat0 V c).arrAt 2 cfg0.N = Cert.Scores.scores (V c main_arg0) (V c main_arg2) :=
  (dat0 V c).arrAt_eq_of_cover 2 _ (fun t _ => flushed_eq V c t) cover

end Cert.KernelIdeal.Proj0

end
-- ==== Proof.Region1.lean ====
/-
  The second projection, from blocks to the array.

  The call walks the four row blocks of its [1024, 2048] operand: point `t` loads rows 256·t … 256·t + 255, the whole
  [128, 2048] table beside them, and writes back rows 256·t … 256·t + 255 of the [1024, 128] result. At (p, q) of
  that block the body stores the clamped inner product of row `p` of the loaded rows with row `q` of the table, which
  is the score of row 256·t + p of the operand against feature `q`. The four blocks tile the result, so after the call
  the result array is the table of scores, whatever contents `V` the call was entered with.
-/
import proofs.«141384_j89567247991565_1_alg».proof.Proof.Gen.KernelIdeal.Frame
import proofs.«141384_j89567247991565_1_alg».proof.Proof.Payloads
import proofs.«141384_j89567247991565_1_alg».proof.Proof.Spec
import Idealize.ShloMosaic.Lib.Pipeline.Value

set_option maxRecDepth 16384

noncomputable section

namespace Cert.KernelIdeal.Proj1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the operand's row block moves with the result's, every other block index is zero. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Each of the four row blocks of the result is some point's. -/
theorem idx_onto : ∀ q0 : Fin 4, ∃ t : Fin cfg1.N, win1_2.index t = ![q0.val, 0] :=
  (by decide +kernel : ∀ q0 : Fin 4, ∃ t : Fin grid1.N, win1_2.index t = ![q0.val, 0])

/-- The operand's block at point `t` read at `y` is the operand read at the row and column `y` stands for. -/
theorem rows_apply (c : Dev nD) (t : Fin cfg1.N) (y : S256x2048.Idx) (i : S1024x2048.Idx)
    (h0 : win1_0.index t (0 : Fin 2) * 256 + 1 * (y 0).val = (i 0).val)
    (h1 : win1_0.index t (1 : Fin 2) * 2048 + 1 * (y 1).val = (i 1).val) :
    (iblk1 V c 0 t : Vec Ideal S256x2048 .f32) y = (V c main_arg1 : S1024x2048.Idx → Elt Ideal .f32) i := by
  unfold iblk1
  rw [View.read_apply]
  show V c main_arg1 _ = V c main_arg1 _
  congr 1
  funext a
  apply Fin.ext
  match a with
  | ⟨0, _⟩ => exact h0
  | ⟨1, _⟩ => exact h1

/-- The table's block at any point is the table. -/
theorem table_apply (c : Dev nD) (t : Fin cfg1.N) (y : S128x2048.Idx) (i : S128x2048.Idx)
    (h0 : win1_1.index t (0 : Fin 2) * 128 + 1 * (y 0).val = (i 0).val)
    (h1 : win1_1.index t (1 : Fin 2) * 2048 + 1 * (y 1).val = (i 1).val) :
    (iblk1 V c 1 t : Vec Ideal S128x2048 .f32) y = (V c main_arg2 : S128x2048.Idx → Elt Ideal .f32) i := by
  unfold iblk1
  rw [View.read_apply]
  show V c main_arg2 _ = V c main_arg2 _
  congr 1
  funext a
  apply Fin.ext
  match a with
  | ⟨0, _⟩ => exact h0
  | ⟨1, _⟩ => exact h1

/-- What point `t` writes back is block `t` of the table of scores. -/
theorem flushed_eq (c : Dev nD) (t : Fin cfg1.N) :
    (dat1 V c).flushed 2 t
      = ((cfg1.win 2).blk t).view.read (Elt Ideal) (Cert.Scores.scores (V c main_arg1) (V c main_arg2)) := by
  show (cfg1.win 2).cut (grid1.coords t) ((dat1 V c).after 2 t) = _
  rw [after1_2]
  unfold out1_2
  rw [View.canon_unit_zero hz]
  simp only [View.ld_unit_zero (S := S256x2048) hz, View.ld_unit_zero (S := S128x2048) hz]
  obtain ⟨e0, e1, e2, e3, e4⟩ := idx_facts t
  funext j
  show k1_pay1 (iblk1 V c 0 t) (iblk1 V c 1 t) j
    = Cert.Scores.scores (V c main_arg1) (V c main_arg2) (((cfg1.win 2).blk t).view.emb j)
  refine (pay_proj1 (iblk1 V c 0 t) (iblk1 V c 1 t) j).trans ?_
  unfold Cert.Scores.scores Cert.Scores.score
  refine congrArg (max · _) (Finset.sum_congr rfl fun k _ => ?_)
  refine congrArg₂ (· * ·) (rows_apply V c t _ _ ?_ ?_) (table_apply V c t _ _ ?_ ?_)
  · show win1_0.index t (0 : Fin 2) * 256 + 1 * (j 0).val = win1_2.index t (0 : Fin 2) * 256 + 1 * (j 0).val
    omega
  · show win1_0.index t (1 : Fin 2) * 2048 + 1 * k.val = k.val
    omega
  · show win1_1.index t (0 : Fin 2) * 128 + 1 * (j 1).val = win1_2.index t (1 : Fin 2) * 128 + 1 * (j 1).val
    omega
  · show win1_1.index t (1 : Fin 2) * 2048 + 1 * k.val = k.val
    omega

/-- An index of the result is in point `t`'s block iff each coordinate is in the block's range on its axis. -/
theorem mem_blk (t : Fin cfg1.N) (i : S1024x128.Idx) :
    i ∈ ((cfg1.win 2).blk t).view.set ↔ ∀ a : Fin 2, win1_2.index t a * S256x128.size a ≤ (i a).val
      ∧ (i a).val < win1_2.index t a * S256x128.size a + S256x128.size a := by
  show i ∈ ((View.whole main_v1).slice (win1_2.rect t)).set ↔ _
  rw [View.set_slice_whole, Rect.mem_set_unit]
  exact Iff.rfl

/-- Row `r` of the result is written back by the point whose block index is `r / 256`. -/
theorem cover (i : S1024x128.Idx) :
    ∃ t : Fin cfg1.N, (cfg1.win 2).flush t = true ∧ i ∈ ((cfg1.win 2).blk t).view.set := by
  have hi0 : (i 0).val < 1024 := (i 0).isLt
  have hi1 : (i 1).val < 128 := (i 1).isLt
  obtain ⟨t, ht⟩ := idx_onto ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 128 ≤ (i 1).val ∧ (i 1).val < win1_2.index t (1 : Fin 2) * 128 + 128
    omega

/-- After the call the result array is the table of scores of the operand against the table, as the call found them. -/
theorem final (c : Dev nD) :
    (dat1 V c).arrAt 2 cfg1.N = Cert.Scores.scores (V c main_arg1) (V c main_arg2) :=
  (dat1 V c).arrAt_eq_of_cover 2 _ (fun t _ => flushed_eq V c t) cover

end Cert.KernelIdeal.Proj1

end
-- ==== Proof.Region2.lean ====
/-
  The last call, from blocks to the array.

  The call walks a 2 × 2 grid over its [1024, 1024] result: point (s, u) loads rows 512·s … of its first [1024, 128]
  operand and rows 512·u … of its second, and writes back the [512, 512] block (s, u) of the result. At (p, q) of that
  block the body stores the inner product over the 128 features of row `p` of the first loaded block with row `q` of
  the second: rows 512·s + p and 512·u + q of the operands. The four blocks tile the result, so after the call the
  result array pairs every row of the first operand with every row of the second, whatever contents `V` the call was
  entered with.
-/
import proofs.«141384_j89567247991565_1_alg».proof.Proof.Gen.KernelIdeal.Frame
import proofs.«141384_j89567247991565_1_alg».proof.Proof.Payloads
import proofs.«141384_j89567247991565_1_alg».proof.Proof.Spec
import Idealize.ShloMosaic.Lib.Pipeline.Value

set_option maxRecDepth 16384

noncomputable section

namespace Cert.KernelIdeal.Pairs

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the first operand's row block is the result's row block, the second operand's row
    block is the result's column block, and neither operand is cut along its features. -/
theorem idx_facts : ∀ t : Fin cfg2.N, win2_0.index t (0 : Fin 2) = win2_2.index t (0 : Fin 2)
    ∧ win2_0.index t (1 : Fin 2) = 0 ∧ win2_1.index t (0 : Fin 2) = win2_2.index t (1 : Fin 2)
    ∧ win2_1.index t (1 : Fin 2) = 0 :=
  (by decide +kernel : ∀ t : Fin grid2.N, _)

/-- Each of the four blocks of the result is some point's. -/
theorem idx_onto : ∀ (q0 q1 : Fin 2), ∃ t : Fin cfg2.N, win2_2.index t = ![q0.val, q1.val] :=
  (by decide +kernel : ∀ (q0 q1 : Fin 2), ∃ t : Fin grid2.N, win2_2.index t = ![q0.val, q1.val])

/-- The first operand's block at point `t` read at `y` is that operand read at the row and feature `y` stands for. -/
theorem left_apply (c : Dev nD) (t : Fin cfg2.N) (y : S512x128.Idx) (i : S1024x128.Idx)
    (h0 : win2_0.index t (0 : Fin 2) * 512 + 1 * (y 0).val = (i 0).val)
    (h1 : win2_0.index t (1 : Fin 2) * 128 + 1 * (y 1).val = (i 1).val) :
    (iblk2 V c 0 t : Vec Ideal S512x128 .bf16) y = (V c main_v0 : S1024x128.Idx → Elt Ideal .bf16) i := by
  unfold iblk2
  rw [View.read_apply]
  show V c main_v0 _ = V c main_v0 _
  congr 1
  funext a
  apply Fin.ext
  match a with
  | ⟨0, _⟩ => exact h0
  | ⟨1, _⟩ => exact h1

/-- The same for the second operand. -/
theorem right_apply (c : Dev nD) (t : Fin cfg2.N) (y : S512x128.Idx) (i : S1024x128.Idx)
    (h0 : win2_1.index t (0 : Fin 2) * 512 + 1 * (y 0).val = (i 0).val)
    (h1 : win2_1.index t (1 : Fin 2) * 128 + 1 * (y 1).val = (i 1).val) :
    (iblk2 V c 1 t : Vec Ideal S512x128 .bf16) y = (V c main_v1 : S1024x128.Idx → Elt Ideal .bf16) i := by
  unfold iblk2
  rw [View.read_apply]
  show V c main_v1 _ = V c main_v1 _
  congr 1
  funext a
  apply Fin.ext
  match a with
  | ⟨0, _⟩ => exact h0
  | ⟨1, _⟩ => exact h1

/-- What point `t` writes back is block `t` of the rows of the first operand paired with the rows of the second. -/
theorem flushed_eq (c : Dev nD) (t : Fin cfg2.N) :
    (dat2 V c).flushed 2 t
      = ((cfg2.win 2).blk t).view.read (Elt Ideal) (Cert.Scores.overlap (V c main_v0) (V c main_v1)) := by
  show (cfg2.win 2).cut (grid2.coords t) ((dat2 V c).after 2 t) = _
  rw [after2_2]
  unfold out2_2
  rw [View.canon_unit_zero hz]
  simp only [View.ld_unit_zero (S := S512x128) hz]
  obtain ⟨e0, e1, e2, e3⟩ := idx_facts t
  funext j
  show k2_pay1 (iblk2 V c 0 t) (iblk2 V c 1 t) j
    = Cert.Scores.overlap (V c main_v0) (V c main_v1) (((cfg2.win 2).blk t).view.emb j)
  refine (pay_fin (iblk2 V c 0 t) (iblk2 V c 1 t) j).trans ?_
  unfold Cert.Scores.overlap
  refine Finset.sum_congr rfl fun k _ => ?_
  refine congrArg₂ (· * ·) (left_apply V c t _ _ ?_ ?_) (right_apply V c t _ _ ?_ ?_)
  · show win2_0.index t (0 : Fin 2) * 512 + 1 * (j 0).val = win2_2.index t (0 : Fin 2) * 512 + 1 * (j 0).val
    omega
  · show win2_0.index t (1 : Fin 2) * 128 + 1 * k.val = k.val
    omega
  · show win2_1.index t (0 : Fin 2) * 512 + 1 * (j 1).val = win2_2.index t (1 : Fin 2) * 512 + 1 * (j 1).val
    omega
  · show win2_1.index t (1 : Fin 2) * 128 + 1 * k.val = k.val
    omega

/-- An index of the result is in point `t`'s block iff each coordinate is in the block's range on its axis. -/
theorem mem_blk (t : Fin cfg2.N) (i : S1024x1024.Idx) :
    i ∈ ((cfg2.win 2).blk t).view.set ↔ ∀ a : Fin 2, win2_2.index t a * S512x512.size a ≤ (i a).val
      ∧ (i a).val < win2_2.index t a * S512x512.size a + S512x512.size a := by
  show i ∈ ((View.whole main_v2).slice (win2_2.rect t)).set ↔ _
  rw [View.set_slice_whole, Rect.mem_set_unit]
  exact Iff.rfl

/-- Entry (r, s) of the result is written back by the point whose block is (r / 512, s / 512). -/
theorem cover (i : S1024x1024.Idx) :
    ∃ t : Fin cfg2.N, (cfg2.win 2).flush t = true ∧ i ∈ ((cfg2.win 2).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win2_2.index t (0 : Fin 2) = (i 0).val / 512 := congrFun ht 0
  have q1 : win2_2.index t (1 : Fin 2) = (i 1).val / 512 := congrFun ht 1
  refine ⟨t, flush2_2 t, ?_⟩
  rw [mem_blk]
  intro a
  match a with
  | ⟨0, _⟩ =>
    show win2_2.index t (0 : Fin 2) * 512 ≤ (i 0).val ∧ (i 0).val < win2_2.index t (0 : Fin 2) * 512 + 512
    omega
  | ⟨1, _⟩ =>
    show win2_2.index t (1 : Fin 2) * 512 ≤ (i 1).val ∧ (i 1).val < win2_2.index t (1 : Fin 2) * 512 + 512
    omega

/-- After the call the result array pairs the rows of the two operands, as the call found them. -/
theorem final (c : Dev nD) :
    (dat2 V c).arrAt 2 cfg2.N = Cert.Scores.overlap (V c main_v0) (V c main_v1) :=
  (dat2 V c).arrAt_eq_of_cover 2 _ (fun t _ => flushed_eq V c t) cover

end Cert.KernelIdeal.Pairs

end
-- ==== Proof.KernelValue.lean ====
/-
  The kernel program's result array as one function of its three arguments.

  Between the calls nothing else runs, so each call is entered with what the one before left. The first call leaves
  the scores of the first operand in its result array and touches nothing else; the second leaves the scores of the
  second operand in its own result array and does not write the first call's; the table is only read, so the second
  call finds it as launched. The last call then pairs the two tables of scores: the result is `Cert.Scores.result`
  of the launch contents of the three arguments.
-/
import proofs.«141384_j89567247991565_1_alg».proof.Proof.Region0
import proofs.«141384_j89567247991565_1_alg».proof.Proof.Region1
import proofs.«141384_j89567247991565_1_alg».proof.Proof.Region2
import proofs.«141384_j89567247991565_1_alg».proof.Proof.KernelRun

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The second call finds its operand as launched: the first call does not touch it. -/
theorem second_operand (c : Dev nD) : V1 m ρ c main_arg1 = m ((c : Thread nD τ).loc main_arg1) :=
  (W1_of_ne m ρ c main_arg1 (by decide)).trans rfl

/-- The second call finds the table as launched: the first call only reads it. -/
theorem second_table (c : Dev nD) : V1 m ρ c main_arg2 = m ((c : Thread nD τ).loc main_arg2) :=
  ((W1_arr m ρ c 1).trans (((dat0 (V0 m ρ) c).arrAt_in 1 rfl _).trans (A_eq0 (V0 m ρ) c 1))).trans rfl

/-- The last call finds, in its first operand, the scores of the first argument: what the first call left, which the
    second does not write. -/
theorem scores_a (c : Dev nD) :
    V2 m ρ c main_v0 = Cert.Scores.scores (m ((c : Thread nD τ).loc main_arg0)) (m ((c : Thread nD τ).loc main_arg2)) :=
  calc V2 m ρ c main_v0
    _ = W1 m ρ c (Proc.devRef .tc main_v0) := W2_of_ne m ρ c main_v0 (by decide)
    _ = (dat0 (V0 m ρ) c).arrAt 2 cfg0.N := W1_arr m ρ c 2
    _ = Cert.Scores.scores (V0 m ρ c main_arg0) (V0 m ρ c main_arg2) := Proj0.final (V0 m ρ) c
    _ = Cert.Scores.scores (m ((c : Thread nD τ).loc main_arg0)) (m ((c : Thread nD τ).loc main_arg2)) := rfl

/-- And, in its second operand, the scores of the second argument: what the second call left. -/
theorem scores_b (c : Dev nD) :
    V2 m ρ c main_v1 = Cert.Scores.scores (m ((c : Thread nD τ).loc main_arg1)) (m ((c : Thread nD τ).loc main_arg2)) :=
  calc V2 m ρ c main_v1
    _ = (dat1 (V1 m ρ) c).arrAt 2 cfg1.N := W2_arr m ρ c 2
    _ = Cert.Scores.scores (V1 m ρ c main_arg1) (V1 m ρ c main_arg2) := Proj1.final (V1 m ρ) c
    _ = Cert.Scores.scores (m ((c : Thread nD τ).loc main_arg1)) (m ((c : Thread nD τ).loc main_arg2)) :=
        congrArg₂ Cert.Scores.scores (second_operand m ρ c) (second_table m ρ c)

/-- The result array at the last boundary. -/
theorem result_eq (c : Dev nD) :
    W3 m ρ c (Proc.devRef .tc main_v2)
      = Cert.Scores.result (m ((c : Thread nD τ).loc main_arg0)) (m ((c : Thread nD τ).loc main_arg1)) (m ((c : Thread nD τ).loc main_arg2)) :=
  calc W3 m ρ c (Proc.devRef .tc main_v2)
    _ = (dat2 (V2 m ρ) c).arrAt 2 cfg2.N := W3_arr m ρ c 2
    _ = Cert.Scores.overlap (V2 m ρ c main_v0) (V2 m ρ c main_v1) := Pairs.final (V2 m ρ) c
    _ = Cert.Scores.overlap (Cert.Scores.scores (m ((c : Thread nD τ).loc main_arg0)) (m ((c : Thread nD τ).loc main_arg2)))
          (Cert.Scores.scores (m ((c : Thread nD τ).loc main_arg1)) (m ((c : Thread nD τ).loc main_arg2))) :=
        congrArg₂ Cert.Scores.overlap (scores_a m ρ c) (scores_b m ρ c)

/-- The run of the kernel program at the ideal instance: every weakly fair execution terminates with the result array
    at `Cert.Scores.result` of the arguments, and the arguments unchanged. -/
theorem run : θ_run defs (onTc (τ := τ) (main (F := Ideal))) ⟨m, fun _ => 0, ρ⟩ (fun r => ∀ c : Dev nD,
      r.2.mem ((c.tc : Thread nD τ).loc main_v2)
        = Cert.Scores.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_main (F := Ideal) m ρ)

end Cert.KernelIdeal.Whole

end
-- ==== Proof.Reference.lean ====
/-
  The reference, index by index.

  Its @main transposes the table, multiplies each operand into it, clamps both products at zero and multiplies the
  first clamped product into the transpose of the second. Read at an index, the transpose only swaps the table's two
  coordinates back, so each clamped product at (r, k) is the score of row `r` against feature `k`, and the last product
  at (r, s) sums the scores of row `r` of the first operand times those of row `s` of the second over the features:
  term for term the function `Cert.Scores.result`.
-/
import proofs.«141384_j89567247991565_1_alg».proof.Defs
import proofs.«141384_j89567247991565_1_alg».proof.Proof.Gen.ReferenceIdeal.Run
import proofs.«141384_j89567247991565_1_alg».proof.Proof.Gen.ReferenceIdeal.Read
import proofs.«141384_j89567247991565_1_alg».proof.Proof.Spec

noncomputable section

namespace Cert.ReferenceIdeal.Scored

open Cert.ReferenceIdeal Cert.ReferenceIdeal.Gen Cert.ReferenceIdeal.Read
open Idealize.ShloMosaic Idealize.ShloMosaic.TcCoe Idealize.ShloMosaic.ValueIdx

/-- The first clamped product is the table of scores of the first operand. -/
theorem clamped_a (x0 : (⟨S1024x2048, .f32⟩ : BufTy).Contents (Elt Ideal)) (x2 : (⟨S128x2048, .f32⟩ : BufTy).Contents (Elt Ideal))
    (y : S1024x128.Idx) : val_main_v4 (F := Ideal) x0 x2 y = Cert.Scores.scores x0 x2 y := by
  rw [val_main_v4_apply, val_main_v1_apply, val_main_call0_v0_apply, val_main_call0_cst_apply]
  unfold Cert.Scores.scores Cert.Scores.score
  show max (∑ k : Fin 2048, x0 (lidx_main_v1 y k) * val_main_v0 (F := Ideal) x2 (ridx_main_v1 y k)) (Ideal.ofBits .f32 0x00000000#32) = _
  refine congrArg (max · _) (Finset.sum_congr rfl fun k _ => ?_)
  rw [val_main_v0_apply]
  refine congrArg₂ (· * ·) (congrArg x0 ?_) (congrArg x2 ?_)
  · funext a; match a with
    | ⟨0, _⟩ => rfl
    | ⟨1, _⟩ => rfl
  · funext a; match a with
    | ⟨0, _⟩ => rfl
    | ⟨1, _⟩ => rfl

/-- The second clamped product is the table of scores of the second operand. -/
theorem clamped_b (x1 : (⟨S1024x2048, .f32⟩ : BufTy).Contents (Elt Ideal)) (x2 : (⟨S128x2048, .f32⟩ : BufTy).Contents (Elt Ideal))
    (y : S1024x128.Idx) : val_main_v5 (F := Ideal) x1 x2 y = Cert.Scores.scores x1 x2 y := by
  rw [val_main_v5_apply, val_main_v3_apply, val_main_call1_v0_apply, val_main_call1_cst_apply]
  unfold Cert.Scores.scores Cert.Scores.score
  show max (∑ k : Fin 2048, x1 (lidx_main_v3 y k) * val_main_v2 (F := Ideal) x2 (ridx_main_v3 y k)) (Ideal.ofBits .f32 0x00000000#32) = _
  refine congrArg (max · _) (Finset.sum_congr rfl fun k _ => ?_)
  rw [val_main_v2_apply]
  refine congrArg₂ (· * ·) (congrArg x1 ?_) (congrArg x2 ?_)
  · funext a; match a with
    | ⟨0, _⟩ => rfl
    | ⟨1, _⟩ => rfl
  · funext a; match a with
    | ⟨0, _⟩ => rfl
    | ⟨1, _⟩ => rfl

/-- The reference's result is `Cert.Scores.result` of its three arguments. -/
theorem result_eq (x0 x1 : (⟨S1024x2048, .f32⟩ : BufTy).Contents (Elt Ideal)) (x2 : (⟨S128x2048, .f32⟩ : BufTy).Contents (Elt Ideal)) :
    val_main_v6 (F := Ideal) x0 x1 x2 = Cert.Scores.result x0 x1 x2 := by
  funext i
  rw [val_main_v6_apply]
  unfold Cert.Scores.result Cert.Scores.overlap
  refine Finset.sum_congr rfl fun k _ => ?_
  rw [clamped_a, clamped_b]
  refine congrArg₂ (· * ·) (congrArg _ ?_) (congrArg _ ?_)
  · funext a; match a with
    | ⟨0, _⟩ => rfl
    | ⟨1, _⟩ => rfl
  · funext a; match a with
    | ⟨0, _⟩ => rfl
    | ⟨1, _⟩ => rfl

end Cert.ReferenceIdeal.Scored

end
-- ==== Proof.lean ====
/-
  The certificate's claims.

  At the ideal instance both programs compute, at (r, s), the sum over the 128 features `k` of
      max (∑ j, a[r, j] · f[k, j]) 0 · max (∑ j, b[s, j] · f[k, j]) 0
  (`Cert.Scores.result`): the kernel program in three calls — two that score the rows of `a` and of `b` against the
  table block by block, one that pairs the two tables of scores block by block —, the reference with two matrix
  products into the transposed table, two clamps and one last product. The changes of float format in the kernels are
  the identity on the extended reals, a product accumulated into a zero array is the plain sum, and the blocks tile
  the arrays, so the two sides are the same sums in the same order and no property of the inputs is used.
  The three frames are the generated ones (the reference's is its run with the result dropped); nothing was rewritten
  by the ideal pass, so the idealization claim is trivial.
-/
import proofs.«141384_j89567247991565_1_alg».proof.Defs
import proofs.«141384_j89567247991565_1_alg».proof.Proof.Gen.Kernel
import proofs.«141384_j89567247991565_1_alg».proof.Proof.Gen.Kernel.Frame
import proofs.«141384_j89567247991565_1_alg».proof.Proof.Gen.KernelIdeal
import proofs.«141384_j89567247991565_1_alg».proof.Proof.Gen.KernelIdeal.Frame
import proofs.«141384_j89567247991565_1_alg».proof.Proof.Gen.ReferenceIdeal
import proofs.«141384_j89567247991565_1_alg».proof.Proof.Gen.ReferenceIdeal.Run
import proofs.«141384_j89567247991565_1_alg».proof.Proof.Gen.Pre_finite_inputs
import proofs.«141384_j89567247991565_1_alg».proof.Proof.KernelValue
import proofs.«141384_j89567247991565_1_alg».proof.Proof.Reference

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with `Cert.Scores.result` of the arguments, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Scored.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
